-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S8192x64x1 : Shape := ⟨3, ![8192, 64, 1]⟩
abbrev S8192x128 : Shape := ⟨2, ![8192, 128]⟩
abbrev S128x8192 : Shape := ⟨2, ![128, 8192]⟩
abbrev S_ : Shape := ⟨0, ![]⟩

class Facts : Prop where
  bcast_S_S8192x64x1 : S_.BroadcastsInDim S8192x64x1 (![] : Fin 0 → Fin S8192x64x1.rank)
  reducesTo_S8192x64x1_S_d0_1_2 : S8192x64x1.ReducesTo [0, 1, 2] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x8192 : S_.BroadcastsInDim S128x8192 (![] : Fin 0 → Fin S128x8192.rank)
  reducesTo_S128x8192_S_d0_1 : S128x8192.ReducesTo [0, 1] S_

variable [Facts]

def fn_part1 {F : FTy → Type} [FloatOps F] (main_v13 : IVec S_ 1) (main_v16 : IVec S128x8192 1) : IVec S_ 1 :=
  let main_c_5 : IVec S_ 1 := constantI S_ 1 1#1
  let main_v17 : IVec S_ 1 := (fun x v => Host.reduce IntOp.andi x v reducesTo_S128x8192_S_d0_1 h_S_) main_v16 main_c_5
  let main_v18 : IVec S_ 1 := andi main_v13 main_v17
  main_v18

def fn {F : FTy → Type} [FloatOps F] (main_arg0 : IVec S8192x64x128 32) (main_arg1 : FVec F S8192x64x1 .f32) (main_arg2 : FVec F S8192x64x1 .f32) (main_arg3 : FVec F S8192x128 .f32) (main_arg4 : FVec F S128x8192 .f32) : IVec S_ 1 :=
  let main_v0 : FVec F S8192x64x1 .f32 := Host.absf main_arg1
  let main_cst : FVec F S_ .f32 := constant S_ .f32 0x7F800000#32
  let main_v1 : FVec F S8192x64x1 .f32 := broadcastInDim S8192x64x1 ![] bcast_S_S8192x64x1 main_cst
  let main_v2 : IVec S8192x64x1 1 := cmpf .olt main_v0 main_v1
  let main_c : IVec S_ 1 := constantI S_ 1 1#1
  let main_v3 : IVec S_ 1 := (fun x v => Host.reduce IntOp.andi x v reducesTo_S8192x64x1_S_d0_1_2 h_S_) main_v2 main_c
  let main_v4 : FVec F S8192x64x1 .f32 := Host.absf main_arg2
  let main_cst_0 : FVec F S_ .f32 := constant S_ .f32 0x7F800000#32
  let main_v5 : FVec F S8192x64x1 .f32 := broadcastInDim S8192x64x1 ![] bcast_S_S8192x64x1 main_cst_0
  let main_v6 : IVec S8192x64x1 1 := cmpf .olt main_v4 main_v5
  let main_c_1 : IVec S_ 1 := constantI S_ 1 1#1
  let main_v7 : IVec S_ 1 := (fun x v => Host.reduce IntOp.andi x v reducesTo_S8192x64x1_S_d0_1_2 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S128x8192 .f32 := Host.absf main_arg4
  let main_cst_4 : FVec F S_ .f32 := constant S_ .f32 0x7F800000#32
  let main_v15 : FVec F S128x8192 .f32 := broadcastInDim S128x8192 ![] bcast_S_S128x8192 main_cst_4
  let main_v16 : IVec S128x8192 1 := cmpf .olt main_v14 main_v15
  fn_part1 (F := F) main_v13 main_v16
-- ==== Kernel.lean ====
abbrev S8192x64x128 : Shape := ⟨3, ![8192, 64, 128]⟩
abbrev S8192x64x1 : Shape := ⟨3, ![8192, 64, 1]⟩
abbrev S8192x128 : Shape := ⟨2, ![8192, 128]⟩
abbrev S128x8192 : Shape := ⟨2, ![128, 8192]⟩
abbrev S8192x8192 : Shape := ⟨2, ![8192, 8192]⟩
abbrev S64x8192x1 : Shape := ⟨3, ![64, 8192, 1]⟩
abbrev S4096x128 : Shape := ⟨2, ![4096, 128]⟩
abbrev S1x4096x1 : Shape := ⟨3, ![1, 4096, 1]⟩
abbrev S128x128 : Shape := ⟨2, ![128, 128]⟩
abbrev S4096x1 : Shape := ⟨2, ![4096, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x64x128, .i32⟩
  | .hbm, ⟨1, _⟩ => ⟨S8192x64x1, .f32⟩
  | .hbm, ⟨2, _⟩ => ⟨S8192x64x1, .f32⟩
  | .hbm, ⟨3, _⟩ => ⟨S8192x128, .f32⟩
  | .hbm, ⟨4, _⟩ => ⟨S128x8192, .f32⟩
  | .hbm, ⟨5, _⟩ => ⟨S8192x8192, .i32⟩
  | .hbm, ⟨6, _⟩ => ⟨S64x8192x1, .f32⟩
  | .hbm, ⟨7, _⟩ => ⟨S64x8192x1, .f32⟩
  | .hbm, ⟨8, _⟩ => ⟨S8192x8192, .f32⟩
  | .local _ .vmem, ⟨0, _⟩ => ⟨S4096x128, .i32⟩
  | .local _ .vmem, ⟨1, _⟩ => ⟨S4096x128, .i32⟩
  | .local _ .vmem, ⟨2, _⟩ => ⟨S1x4096x1, .f32⟩
  | .local _ .vmem, ⟨3, _⟩ => ⟨S1x4096x1, .f32⟩
  | .local _ .vmem, ⟨4, _⟩ => ⟨S1x4096x1, .f32⟩
  | .local _ .vmem, ⟨5, _⟩ => ⟨S1x4096x1, .f32⟩
  | .local _ .vmem, ⟨6, _⟩ => ⟨S4096x128, .f32⟩
  | .local _ .vmem, ⟨7, _⟩ => ⟨S4096x128, .f32⟩
  | .local _ .vmem, ⟨8, _⟩ => ⟨S128x128, .f32⟩
  | .local _ .vmem, ⟨9, _⟩ => ⟨S128x128, .f32⟩
  | .local _ .vmem, ⟨10, _⟩ => ⟨S4096x128, .f32⟩
  | .local _ .vmem, ⟨11, _⟩ => ⟨S4096x128, .f32⟩
  | _, _ => ⟨S8192x64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192x64x128_S8192x8192 : S8192x64x128.ShapeCasts S8192x8192
  transposes_S8192x64x1_S64x8192x1_1_0_2 : S8192x64x1.Transposes [1, 0, 2] S64x8192x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  broadcasts_S4096x1_S4096x128 : S4096x1.Broadcasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x8192.size a
  hwx0_0 : ∀ i : grid0.Coords, EltTy.bits .i32 = 32 ∨ (Rect.block (s := S8192x8192) S4096x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S64x8192x1.size a
  hwx0_1 : ∀ i : grid0.Coords, EltTy.bits .f32 = 32 ∨ (Rect.block (s := S64x8192x1) S1x4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S64x8192x1.size a
  hwx0_2 : ∀ i : grid0.Coords, EltTy.bits .f32 = 32 ∨ (Rect.block (s := S64x8192x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S8192x128.size a
  hwx0_3 : ∀ i : grid0.Coords, EltTy.bits .f32 = 32 ∨ (Rect.block (s := S8192x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x8192.size a
  hwx0_4 : ∀ i : grid0.Coords, EltTy.bits .f32 = 32 ∨ (Rect.block (s := S128x8192) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S8192x8192.size a
  hwx0_5 : ∀ i : grid0.Coords, EltTy.bits .f32 = 32 ∨ (Rect.block (s := S8192x8192) S4096x128.size (cc0_transform_5 i) (hinb0_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S8192x64x1 : Shape := ⟨3, ![8192, 64, 1]⟩
abbrev S8192x128 : Shape := ⟨2, ![8192, 128]⟩
abbrev S128x8192 : Shape := ⟨2, ![128, 8192]⟩
abbrev S8192x8192 : Shape := ⟨2, ![8192, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x64x128, .i32⟩
  | .hbm, ⟨1, _⟩ => ⟨S8192x64x1, .f32⟩
  | .hbm, ⟨2, _⟩ => ⟨S8192x64x1, .f32⟩
  | .hbm, ⟨3, _⟩ => ⟨S8192x128, .f32⟩
  | .hbm, ⟨4, _⟩ => ⟨S128x8192, .f32⟩
  | .hbm, ⟨5, _⟩ => ⟨S8192x64x128, .f32⟩
  | .hbm, ⟨6, _⟩ => ⟨S8192x64x128, .f32⟩
  | .hbm, ⟨7, _⟩ => ⟨S8192x64x128, .f32⟩
  | .hbm, ⟨8, _⟩ => ⟨S8192x64x128, .f32⟩
  | .hbm, ⟨9, _⟩ => ⟨S8192x64x128, .f32⟩
  | .hbm, ⟨10, _⟩ => ⟨S8192x8192, .f32⟩
  | .hbm, ⟨11, _⟩ => ⟨S8192x8192, .f32⟩
  | .hbm, ⟨12, _⟩ => ⟨S8192x8192, .f32⟩
  | _, _ => ⟨S8192x64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The result both programs compute, as one function of the five argument arrays.

  A quantised weight `w` of 8192 rows is stored as 64 groups of 128 lanes per row, with one scale `s` and one
  zero point `z` per (row, group). Output column `c` of row `r` belongs to group `c / 128` and is lane
  `c % 128` of it, and the entry there is

      (z[r, c / 128] + w[r, c / 128, c % 128] · s[r, c / 128])  +  Σ_k u[r, k] · d[k, c]

  the dequantised weight (the integer read signed, exactly) plus the rank-128 correction `u · d`. Everything is read
  on the extended reals; the sum and the two additions are associated exactly as written, which is how both programs
  associate them, so no law of the extended reals beyond reading each operation at an index is needed.
-/
import Idealize.ShloMosaic.PureOps.Ideal
import Idealize.ShloMosaic.Lib.ValueIdx

noncomputable section

open scoped BigOperators

namespace Cert.Spec

open Idealize.ShloMosaic Idealize.ShloMosaic.ValueIdx

/-- The group that output column `c` belongs to: the columns are laid out group after group, 128 lanes each. -/
def grp (c : Fin 8192) : Fin 64 := ⟨c.val / 128, by have := c.isLt; omega⟩

/-- The lane of output column `c` inside its group. -/
def lane (c : Fin 8192) : Fin 128 := ⟨c.val % 128, Nat.mod_lt _ (by decide)⟩

@[simp] theorem grp_val (c : Fin 8192) : (grp c).val = c.val / 128 := rfl
@[simp] theorem lane_val (c : Fin 8192) : (lane c).val = c.val % 128 := rfl

/-- The entry at row `r`, column `c`: the dequantised weight plus the low-rank correction. -/
def entry (w : IVec ⟨3, ![8192, 64, 128]⟩ 32) (s z : FVec Ideal ⟨3, ![8192, 64, 1]⟩ .f32)
    (u : FVec Ideal ⟨2, ![8192, 128]⟩ .f32) (d : FVec Ideal ⟨2, ![128, 8192]⟩ .f32) (r c : Fin 8192) : EReal :=
  (z (ix3 r (grp c) (0 : Fin 1)) + (FloatOps.sitofp (F := Ideal) .f32 (w (ix3 r (grp c) (lane c))) : EReal) * s (ix3 r (grp c) (0 : Fin 1)))
    + ∑ k : Fin 128, u (ix2 r k) * d (ix2 k c)

/-- The whole result array: `entry` at every (row, column). -/
def dequantLowRank (w : IVec ⟨3, ![8192, 64, 128]⟩ 32) (s z : FVec Ideal ⟨3, ![8192, 64, 1]⟩ .f32)
    (u : FVec Ideal ⟨2, ![8192, 128]⟩ .f32) (d : FVec Ideal ⟨2, ![128, 8192]⟩ .f32) : FVec Ideal ⟨2, ![8192, 8192]⟩ .f32 :=
  fun i => entry w s z u d (i 0) (i 1)

theorem dequantLowRank_apply (w : IVec ⟨3, ![8192, 64, 128]⟩ 32) (s z : FVec Ideal ⟨3, ![8192, 64, 1]⟩ .f32)
    (u : FVec Ideal ⟨2, ![8192, 128]⟩ .f32) (d : FVec Ideal ⟨2, ![128, 8192]⟩ .f32) (r c : Fin 8192) :
    dequantLowRank w s z u d (ix2 r c) = entry w s z u d r c := rfl

end Cert.Spec

end
-- ==== Proof.RefValue.lean ====
/-
  The reference's result array is the specification (Spec.lean), index by index.

  The reference computes the dequantised weight on the [8192, 64, 128] layout — each (row, group)'s scale and zero point
  broadcast along the 128 lanes — reshapes it to [8192, 8192], and adds the product `u · d`. The reshape keeps
  row-major positions: position `r · 8192 + c` of the matrix is position `(r · 64 + c / 128) · 128 + c % 128` of the
  rank-3 array, i.e. (row r, group c / 128, lane c % 128). The broadcasts read their operand at lane 0 of its unit axis, and
  the host's `dot_general` at (r, c) is the sum over k of u[r, k] · d[k, c].
-/
import proofs.«175200_j54073638256714_1_alg».proof.Proof.Gen.ReferenceIdeal.Read
import proofs.«175200_j54073638256714_1_alg».proof.Proof.Spec

noncomputable section

open scoped BigOperators

namespace Cert.ReferenceIdeal.RefValue

open Cert.ReferenceIdeal Cert.ReferenceIdeal.Read Idealize.ShloMosaic Idealize.ShloMosaic.ValueIdx

/-- Where the reshape reads: matrix entry (r, c) is the rank-3 entry (r, c / 128, c % 128). -/
theorem idx_reshape (r c : Fin 8192) : idx_main_v5 (ix2 r c) = ix3 r (Cert.Spec.grp c) (Cert.Spec.lane c) := by
  funext a
  apply Fin.ext
  have hc : c.val < 8192 := c.isLt
  match a with
  | ⟨0, _⟩ => show (r.val * 8192 + c.val) / 8192 = r.val; omega
  | ⟨1, _⟩ => show (r.val * 8192 + c.val) / 128 % 64 = c.val / 128; omega
  | ⟨2, _⟩ => show (r.val * 8192 + c.val) % 128 = c.val % 128; omega

/-- Where the scale's broadcast along the lanes reads: lane 0 of the unit axis. -/
theorem idx_scale (r : Fin 8192) (g : Fin 64) (l : Fin 128) : idx_main_v1 (ix3 r g l) = ix3 r g (0 : Fin 1) := by
  funext a
  match a with
  | ⟨0, _⟩ => rfl
  | ⟨1, _⟩ => rfl
  | ⟨2, _⟩ => rfl

/-- Where the zero point's broadcast along the lanes reads. -/
theorem idx_zero (r : Fin 8192) (g : Fin 64) (l : Fin 128) : idx_main_v3 (ix3 r g l) = ix3 r g (0 : Fin 1) := by
  funext a
  match a with
  | ⟨0, _⟩ => rfl
  | ⟨1, _⟩ => rfl
  | ⟨2, _⟩ => rfl

/-- The product's left factor at (r, c), contraction index k, is u[r, k]. -/
theorem idx_left (r c : Fin 8192) (k : Fin 128) : lidx_main_v6 (ix2 r c) k = ix2 r k := by
  funext a
  match a with
  | ⟨0, _⟩ => rfl
  | ⟨1, _⟩ => rfl

/-- The product's right factor at (r, c), contraction index k, is d[k, c]. -/
theorem idx_right (r c : Fin 8192) (k : Fin 128) : ridx_main_v6 (ix2 r c) k = ix2 k c := by
  funext a
  match a with
  | ⟨0, _⟩ => rfl
  | ⟨1, _⟩ => rfl

/-- The reference's last stage, at the extended reals, is the specification. -/
theorem result_eq (x0 : IVec S8192x64x128 32) (x1 x2 : FVec Ideal S8192x64x1 .f32)
    (x3 : FVec Ideal S8192x128 .f32) (x4 : FVec Ideal S128x8192 .f32) :
    val_main_v7 (F := Ideal) x0 x1 x2 x3 x4 = Cert.Spec.dequantLowRank x0 x1 x2 x3 x4 := by
  funext i
  obtain ⟨r, c, rfl⟩ : ∃ (r c : Fin 8192), i = ix2 r c := ⟨i 0, i 1, eq_ix2 i⟩
  rw [val_main_v7_apply, val_main_v5_apply, val_main_v4_apply, val_main_v3_apply, val_main_v2_apply, val_main_v0_apply,
    val_main_v1_apply, val_main_v6_apply, idx_reshape, idx_scale, idx_zero, Cert.Spec.dequantLowRank_apply]
  simp only [idx_left, idx_right]
  rfl

end Cert.ReferenceIdeal.RefValue

end
-- ==== Proof.Payload.lean ====
/-
  What the kernel body stores, read at one entry of its [4096, 128] output block.

  At a grid point the body holds a [4096, 128] block `x0` of integer weights, the matching [1, 4096, 1] columns `x1`
  (scales) and `x2` (zero points) of one group, a [4096, 128] block `x3` of `u` rows and a [128, 128] block `x4` of `d`
  columns. It stores  (x2 + x0 · x1) + x3 · x4 : at (p, q)

      (x2[0, p, 0] + x0[p, q] · x1[0, p, 0])  +  Σ_k x3[p, k] · x4[k, q]

  The column [1, 4096, 1] is first viewed as [4096, 1] and then repeated along the 128 lanes; the narrowing of the two
  matrix factors to bf16 is the identity on the extended reals; the matrix unit accumulates into a zero block, so its
  entry is just the sum over the contraction index.
-/
import proofs.«175200_j54073638256714_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A per-row column repeated along the lanes -/

/-- A [4096, 1] column broadcast to [4096, 128] reads, at (p, q), the column at row p. -/
theorem column_bcast_apply (v : FVec Ideal S4096x1 .f32) (p : Fin 4096) (q : Fin 128) :
    broadcastTo S4096x128 v broadcasts_S4096x1_S4096x128 (ix2 p q) = v (ix2 p (0 : Fin 1)) := by
  refine broadcastTo_apply v broadcasts_S4096x1_S4096x128 (ix2 p q) (ix2 p (0 : Fin 1)) fun ax => ?_
  match ax with
  | ⟨0, _⟩ => show p.val = if (4096 : Nat) = 1 then 0 else p.val; rw [if_neg (by decide)]
  | ⟨1, _⟩ => show 0 = if (1 : Nat) = 1 then 0 else q.val; rw [if_pos rfl]

/-- A [1, 4096, 1] block viewed as a [4096, 1] column and repeated along the lanes reads, at (p, q), the block at (0, p, 0). -/
theorem column_apply (x : FVec Ideal S1x4096x1 .f32) (p : Fin 4096) (q : Fin 128) :
    broadcastTo S4096x128 (shapeCast S4096x1 x shapeCasts_S1x4096x1_S4096x1) broadcasts_S4096x1_S4096x128 (ix2 p q)
      = x (ix3 (0 : Fin 1) p (0 : Fin 1)) :=
  (column_bcast_apply _ p q).trans (shapeCast_1ab_ab_apply x shapeCasts_S1x4096x1_S4096x1 p (0 : Fin 1))

/-! ## The matrix product at an entry -/

theorem lhs_axis0 (i : S4096x128.Idx) (k : dot_S4096x128_S128x128_S4096x128_1_0_0_1_n_n.contr.Idx) :
    (dot_S4096x128_S128x128_S4096x128_1_0_0_1_n_n.lhsIdx i k 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_axis1 (i : S4096x128.Idx) (k : dot_S4096x128_S128x128_S4096x128_1_0_0_1_n_n.contr.Idx) :
    (dot_S4096x128_S128x128_S4096x128_1_0_0_1_n_n.lhsIdx i k 1).val = (k ⟨0, by decide⟩).val :=
  dot_S4096x128_S128x128_S4096x128_1_0_0_1_n_n.lhsIdx_val_of_single rfl i k
theorem rhs_axis0 (i : S4096x128.Idx) (k : dot_S4096x128_S128x128_S4096x128_1_0_0_1_n_n.contr.Idx) :
    (dot_S4096x128_S128x128_S4096x128_1_0_0_1_n_n.rhsIdx i k 0).val = (k ⟨0, by decide⟩).val :=
  dot_S4096x128_S128x128_S4096x128_1_0_0_1_n_n.rhsIdx_val_of_single rfl i k
theorem rhs_axis1 (i : S4096x128.Idx) (k : dot_S4096x128_S128x128_S4096x128_1_0_0_1_n_n.contr.Idx) :
    (dot_S4096x128_S128x128_S4096x128_1_0_0_1_n_n.rhsIdx i k 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The [4096, 128] × [128, 128] product accumulated into zero reads, at (p, q), the sum over k of a[p, k] · b[k, q]. -/
theorem product_apply (a : FVec Ideal S4096x128 .bf16) (b : FVec Ideal S128x128 .bf16) (p : Fin 4096) (q : Fin 128) :
    matmul dot_S4096x128_S128x128_S4096x128_1_0_0_1_n_n none a b (constant (F := Ideal) S4096x128 .f32 0x00000000#32) (ix2 p q)
      = ∑ k : Fin 128, a (ix2 p k) * b (ix2 k q) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The stored value at an entry -/

/-- What the body stores, at entry (p, q) of the output block. -/
theorem stored_apply (x0 : IVec S4096x128 32) (x1 x2 : FVec Ideal S1x4096x1 .f32) (x3 : FVec Ideal S4096x128 .f32)
    (x4 : FVec Ideal S128x128 .f32) (p : Fin 4096) (q : Fin 128) :
    k0_pay1 (F := Ideal) x0 x1 x2 x3 x4 (ix2 p q)
      = (x2 (ix3 (0 : Fin 1) p (0 : Fin 1)) + (FloatOps.sitofp (F := Ideal) .f32 (x0 (ix2 p q)) : EReal) * x1 (ix3 (0 : Fin 1) p (0 : Fin 1)))
        + ∑ k : Fin 128, x3 (ix2 p k) * x4 (ix2 k q) := by
  unfold k0_pay1
  rw [addf_apply, addf_apply, mulf_apply, sitofp_apply, shapeCast_self, column_apply, column_apply, product_apply]
  rfl

end Cert.KernelIdeal.Payload

end
-- ==== Proof.Point.lean ====
/-
  One entry of one output tile is the specification's entry.

  The output is cut into 2 × 64 tiles of 4096 rows by 128 columns: tile (bi, g) holds rows `bi · 4096 + p` and columns
  `g · 128 + q`, and its 128 columns are exactly group `g`, lane `q` being column `q` of the tile. So when the body's
  blocks are the arrays' tiles — the weight's rows `bi · 4096 + p` of group `g`, that group's scales and zero points for
  those rows, the same rows of `u`, and columns `g · 128 + q` of `d` — what the body stores at (p, q) is the specification
  at (bi · 4096 + p, g · 128 + q).
-/
import proofs.«175200_j54073638256714_1_alg».proof.Proof.Spec
import proofs.«175200_j54073638256714_1_alg».proof.Proof.Payload

noncomputable section

open scoped BigOperators

namespace Cert.KernelIdeal.Point

open Cert.KernelIdeal Cert.KernelIdeal.Gen Idealize.ShloMosaic Idealize.ShloMosaic.ValueIdx

/-- Row `p` of row-tile `bi`. -/
def row (bi : Fin 2) (p : Fin 4096) : Fin 8192 := ⟨bi.val * 4096 + p.val, by have := bi.isLt; have := p.isLt; omega⟩

/-- Column `q` of column-tile `g`. -/
def col (g : Fin 64) (q : Fin 128) : Fin 8192 := ⟨g.val * 128 + q.val, by have := g.isLt; have := q.isLt; omega⟩

@[simp] theorem row_val (bi : Fin 2) (p : Fin 4096) : (row bi p).val = bi.val * 4096 + p.val := rfl
@[simp] theorem col_val (g : Fin 64) (q : Fin 128) : (col g q).val = g.val * 128 + q.val := rfl

/-- The columns of column-tile `g` are group `g` … -/
theorem grp_col (g : Fin 64) (q : Fin 128) : Cert.Spec.grp (col g q) = g :=
  Fin.ext (by show (g.val * 128 + q.val) / 128 = g.val; have := q.isLt; omega)

/-- … and column `q` of the tile is lane `q` of the group. -/
theorem lane_col (g : Fin 64) (q : Fin 128) : Cert.Spec.lane (col g q) = q :=
  Fin.ext (by show (g.val * 128 + q.val) % 128 = q.val; have := q.isLt; omega)

/-- The body's stored value on the arrays' tiles, at (p, q), is the specification at the tile's row and column. -/
theorem tile_entry (W : IVec ⟨3, ![8192, 64, 128]⟩ 32) (S Z : FVec Ideal ⟨3, ![8192, 64, 1]⟩ .f32)
    (U : FVec Ideal ⟨2, ![8192, 128]⟩ .f32) (D : FVec Ideal ⟨2, ![128, 8192]⟩ .f32)
    (x0 : IVec S4096x128 32) (x1 x2 : FVec Ideal S1x4096x1 .f32) (x3 : FVec Ideal S4096x128 .f32) (x4 : FVec Ideal S128x128 .f32)
    (bi : Fin 2) (g : Fin 64)
    (h0 : ∀ (p : Fin 4096) (q : Fin 128), x0 (ix2 p q) = W (ix3 (row bi p) g q))
    (h1 : ∀ p : Fin 4096, x1 (ix3 (0 : Fin 1) p (0 : Fin 1)) = S (ix3 (row bi p) g (0 : Fin 1)))
    (h2 : ∀ p : Fin 4096, x2 (ix3 (0 : Fin 1) p (0 : Fin 1)) = Z (ix3 (row bi p) g (0 : Fin 1)))
    (h3 : ∀ (p : Fin 4096) (k : Fin 128), x3 (ix2 p k) = U (ix2 (row bi p) k))
    (h4 : ∀ k q : Fin 128, x4 (ix2 k q) = D (ix2 k (col g q)))
    (p : Fin 4096) (q : Fin 128) :
    k0_pay1 (F := Ideal) x0 x1 x2 x3 x4 (ix2 p q) = Cert.Spec.dequantLowRank W S Z U D (ix2 (row bi p) (col g q)) := by
  rw [Cert.KernelIdeal.Payload.stored_apply, Cert.Spec.dequantLowRank_apply, h0, h1, h2]
  unfold Cert.Spec.entry
  rw [grp_col, lane_col]
  simp only [h3, h4]

end Cert.KernelIdeal.Point

end
-- ==== Proof.Blocks.lean ====
/-
  From the kernel's tiles to the whole result array.

  The grid has 2 × 64 points; point (i, g) computes output tile (i, g): rows `i · 4096 …`, columns `g · 128 …`. Before
  the region the host views the weight [8192, 64, 128] as the matrix [8192, 8192] (same row-major positions: column
  `g · 128 + q` is group g, lane q) and transposes scale and zero point to [64, 8192, 1], so that a group's column for
  4096 rows is one [1, 4096, 1] block. Read back through these, the five input blocks at point (i, g) are the arrays'
  tiles that Point.lean's `tile_entry` asks for, so the tile the point writes back is that tile of the specification;
  the 128 tiles cover the array, so the array ends holding the specification.
-/
import proofs.«175200_j54073638256714_1_alg».proof.Proof.Gen.KernelIdeal.Value
import proofs.«175200_j54073638256714_1_alg».proof.Proof.Point
import Idealize.ShloMosaic.Lib.StableHlo.Run
import Idealize.ShloMosaic.Lib.ValueLayout

set_option maxRecDepth 16384

noncomputable section

open scoped BigOperators

namespace Cert.KernelIdeal.Blocks

open Cert.KernelIdeal Cert.KernelIdeal.Gen Cert.KernelIdeal.Value Cert.KernelIdeal.Point
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays, and the result -/

abbrev argW (c : Dev nD) : IVec S8192x64x128 32 := m ((c : Thread nD τ).loc main_arg0)
abbrev argS (c : Dev nD) : FVec Ideal S8192x64x1 .f32 := m ((c : Thread nD τ).loc main_arg1)
abbrev argZ (c : Dev nD) : FVec Ideal S8192x64x1 .f32 := m ((c : Thread nD τ).loc main_arg2)
abbrev argU (c : Dev nD) : FVec Ideal S8192x128 .f32 := m ((c : Thread nD τ).loc main_arg3)
abbrev argD (c : Dev nD) : FVec Ideal S128x8192 .f32 := m ((c : Thread nD τ).loc main_arg4)

/-- The result array: the specification of the argument arrays. -/
abbrev result (c : Dev nD) : Buf (Elt Ideal) ((c : Thread nD τ).loc main_v3) :=
  Cert.Spec.dequantLowRank (argW m c) (argS m c) (argZ m c) (argU m c) (argD m c)

/-! ## The arrays the region finds -/

/-- The weight as the region finds it: the rank-3 argument viewed as a matrix. -/
theorem V_weight (c : Dev nD) :
    (V m c main_v0 : S8192x8192.Idx → BitVec 32) = shapeCast S8192x8192 (argW m c) shapeCasts_S8192x64x128_S8192x8192 := by
  dsimp only [Gen.V, Gen.hostOps0]; after_results <;> rfl

/-- The scale as the region finds it: group axis first. -/
theorem V_scale (c : Dev nD) :
    (V m c main_v1 : S64x8192x1.Idx → EReal) = transpose S64x8192x1 [1, 0, 2] (argS m c) transposes_S8192x64x1_S64x8192x1_1_0_2 := by
  dsimp only [Gen.V, Gen.hostOps0]; after_results <;> rfl

/-- The zero point as the region finds it: group axis first. -/
theorem V_zero (c : Dev nD) :
    (V m c main_v2 : S64x8192x1.Idx → EReal) = transpose S64x8192x1 [1, 0, 2] (argZ m c) transposes_S8192x64x1_S64x8192x1_1_0_2 := by
  dsimp only [Gen.V, Gen.hostOps0]; after_results <;> rfl

/-- The weight matrix at (r, c) is the rank-3 weight at (r, c / 128, c % 128). -/
theorem weight_matrix_apply (w : IVec S8192x64x128 32) (r : Fin 8192) (g : Fin 64) (q : Fin 128) :
    shapeCast S8192x8192 w shapeCasts_S8192x64x128_S8192x8192 (ix2 r (col g q)) = w (ix3 r g q) :=
  shapeCast_apply w shapeCasts_S8192x64x128_S8192x8192 (ix2 r (col g q)) (ix3 r g q) (by
    rw [Shape.rowMajor_val_three, Shape.rowMajor_val_two]
    show (r.val * 64 + g.val) * 128 + q.val = r.val * 8192 + (g.val * 128 + q.val)
    omega)

/-- A per-(row, group) column with the group axis first, at (g, r, 0), is the argument at (r, g, 0). -/
theorem group_first_apply (x : FVec Ideal S8192x64x1 .f32) (g : Fin 64) (r : Fin 8192) :
    transpose S64x8192x1 [1, 0, 2] x transposes_S8192x64x1_S64x8192x1_1_0_2 (ix3 g r (0 : Fin 1)) = x (ix3 r g (0 : Fin 1)) :=
  transpose_apply _ x transposes_S8192x64x1_S64x8192x1_1_0_2 (ix3 g r (0 : Fin 1)) (ix3 r g (0 : Fin 1)) fun b =>
    match b with | ⟨0, _⟩ => rfl | ⟨1, _⟩ => rfl | ⟨2, _⟩ => rfl

/-! ## The index maps over the grid -/

/-- Each input window moves with the output tile: the weight with both tile indices, scale and zero point with
    (group, row-tile), `u` with the row-tile, `d` with the column-tile; and the tile indices stay in 2 × 64. -/
theorem idx_facts : ∀ t : Fin cfg0.N,
    win0_0.index t (0 : Fin 2) = win0_5.index t (0 : Fin 2) ∧ win0_0.index t (1 : Fin 2) = win0_5.index t (1 : Fin 2)
    ∧ win0_1.index t (0 : Fin 3) = win0_5.index t (1 : Fin 2) ∧ win0_1.index t (1 : Fin 3) = win0_5.index t (0 : Fin 2) ∧ win0_1.index t (2 : Fin 3) = 0
    ∧ win0_2.index t (0 : Fin 3) = win0_5.index t (1 : Fin 2) ∧ win0_2.index t (1 : Fin 3) = win0_5.index t (0 : Fin 2) ∧ win0_2.index t (2 : Fin 3) = 0
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) < 2 ∧ win0_5.index t (1 : Fin 2) < 64 :=
  (by decide +kernel : ∀ t : Fin grid0.N, _)

/-- Every tile of the 2 × 64 is some point's. -/
theorem idx_onto : ∀ (q0 : Fin 2) (q1 : Fin 64), ∃ t : Fin cfg0.N, win0_5.index t = ![q0.val, q1.val] :=
  (by decide +kernel : ∀ (q0 : Fin 2) (q1 : Fin 64), ∃ t : Fin grid0.N, win0_5.index t = ![q0.val, q1.val])

/-- The row-tile of point `t`. -/
def rowTile (t : Fin cfg0.N) : Fin 2 := ⟨win0_5.index t (0 : Fin 2), (idx_facts t).2.2.2.2.2.2.2.2.2.2.2.2.1⟩
/-- The column-tile (the group) of point `t`. -/
def colTile (t : Fin cfg0.N) : Fin 64 := ⟨win0_5.index t (1 : Fin 2), (idx_facts t).2.2.2.2.2.2.2.2.2.2.2.2.2⟩

theorem rowTile_val (t : Fin cfg0.N) : (rowTile t).val = win0_5.index t (0 : Fin 2) := rfl
theorem colTile_val (t : Fin cfg0.N) : (colTile t).val = win0_5.index t (1 : Fin 2) := rfl

/-! ## The input blocks, read off the argument arrays -/

abbrev wblk (c : Dev nD) (t : Fin cfg0.N) : IVec S4096x128 32 := iblk m c 0 t
abbrev sblk (c : Dev nD) (t : Fin cfg0.N) : FVec Ideal S1x4096x1 .f32 := iblk m c 1 t
abbrev zblk (c : Dev nD) (t : Fin cfg0.N) : FVec Ideal S1x4096x1 .f32 := iblk m c 2 t
abbrev ublk (c : Dev nD) (t : Fin cfg0.N) : FVec Ideal S4096x128 .f32 := iblk m c 3 t
abbrev dblk (c : Dev nD) (t : Fin cfg0.N) : FVec Ideal S128x128 .f32 := iblk m c 4 t

/-- The weight block at point t: the tile's rows of the tile's group. -/
theorem wblk_apply (c : Dev nD) (t : Fin cfg0.N) (p : Fin 4096) (q : Fin 128) :
    wblk m c t (ix2 p q) = argW m c (ix3 (row (rowTile t) p) (colTile t) q) := by
  obtain ⟨e0, e1, -⟩ := idx_facts t
  show V m c main_v0 (((cfg0.win 0).blk t).view.emb (ix2 p q)) = _
  refine (congrFun (V_weight m c) _).trans ?_
  refine Eq.trans (congrArg _ ?_) (weight_matrix_apply (argW m c) (row (rowTile t) p) (colTile t) q)
  funext a; apply Fin.ext
  match a with
  | ⟨0, _⟩ => show win0_0.index t (0 : Fin 2) * 4096 + 1 * p.val = win0_5.index t (0 : Fin 2) * 4096 + p.val; omega
  | ⟨1, _⟩ => show win0_0.index t (1 : Fin 2) * 128 + 1 * q.val = win0_5.index t (1 : Fin 2) * 128 + q.val; omega

/-- The scale block at point t: the tile's group, the tile's rows. -/
theorem sblk_apply (c : Dev nD) (t : Fin cfg0.N) (p : Fin 4096) :
    sblk m c t (ix3 (0 : Fin 1) p (0 : Fin 1)) = argS m c (ix3 (row (rowTile t) p) (colTile t) (0 : Fin 1)) := by
  obtain ⟨-, -, e0, e1, e2, -⟩ := idx_facts t
  show V m c main_v1 (((cfg0.win 1).blk t).view.emb (ix3 (0 : Fin 1) p (0 : Fin 1))) = _
  refine (congrFun (V_scale m c) _).trans ?_
  refine Eq.trans (congrArg _ ?_) (group_first_apply (argS m c) (colTile t) (row (rowTile t) p))
  funext a; apply Fin.ext
  match a with
  | ⟨0, _⟩ => show win0_1.index t (0 : Fin 3) * 1 + 1 * 0 = win0_5.index t (1 : Fin 2); omega
  | ⟨1, _⟩ => show win0_1.index t (1 : Fin 3) * 4096 + 1 * p.val = win0_5.index t (0 : Fin 2) * 4096 + p.val; omega
  | ⟨2, _⟩ => show win0_1.index t (2 : Fin 3) * 1 + 1 * 0 = 0; omega

/-- The zero-point block at point t: the tile's group, the tile's rows. -/
theorem zblk_apply (c : Dev nD) (t : Fin cfg0.N) (p : Fin 4096) :
    zblk m c t (ix3 (0 : Fin 1) p (0 : Fin 1)) = argZ m c (ix3 (row (rowTile t) p) (colTile t) (0 : Fin 1)) := by
  obtain ⟨-, -, -, -, -, e0, e1, e2, -⟩ := idx_facts t
  show V m c main_v2 (((cfg0.win 2).blk t).view.emb (ix3 (0 : Fin 1) p (0 : Fin 1))) = _
  refine (congrFun (V_zero m c) _).trans ?_
  refine Eq.trans (congrArg _ ?_) (group_first_apply (argZ m c) (colTile t) (row (rowTile t) p))
  funext a; apply Fin.ext
  match a with
  | ⟨0, _⟩ => show win0_2.index t (0 : Fin 3) * 1 + 1 * 0 = win0_5.index t (1 : Fin 2); omega
  | ⟨1, _⟩ => show win0_2.index t (1 : Fin 3) * 4096 + 1 * p.val = win0_5.index t (0 : Fin 2) * 4096 + p.val; omega
  | ⟨2, _⟩ => show win0_2.index t (2 : Fin 3) * 1 + 1 * 0 = 0; omega

/-- The block of `u` at point t: the tile's rows, every column. -/
theorem ublk_apply (c : Dev nD) (t : Fin cfg0.N) (p : Fin 4096) (k : Fin 128) :
    ublk m c t (ix2 p k) = argU m c (ix2 (row (rowTile t) p) k) := by
  obtain ⟨-, -, -, -, -, -, -, -, e0, e1, -⟩ := idx_facts t
  show V m c main_arg3 (((cfg0.win 3).blk t).view.emb (ix2 p k)) = _
  refine (congrFun (V_main_arg3 m c) _).trans ?_
  refine congrArg _ ?_
  funext a; apply Fin.ext
  match a with
  | ⟨0, _⟩ => show win0_3.index t (0 : Fin 2) * 4096 + 1 * p.val = win0_5.index t (0 : Fin 2) * 4096 + p.val; omega
  | ⟨1, _⟩ => show win0_3.index t (1 : Fin 2) * 128 + 1 * k.val = k.val; omega

/-- The block of `d` at point t: every row, the tile's columns. -/
theorem dblk_apply (c : Dev nD) (t : Fin cfg0.N) (k q : Fin 128) :
    dblk m c t (ix2 k q) = argD m c (ix2 k (col (colTile t) q)) := by
  obtain ⟨-, -, -, -, -, -, -, -, -, -, e0, e1, -⟩ := idx_facts t
  show V m c main_arg4 (((cfg0.win 4).blk t).view.emb (ix2 k q)) = _
  refine (congrFun (V_main_arg4 m c) _).trans ?_
  refine congrArg _ ?_
  funext a; apply Fin.ext
  match a with
  | ⟨0, _⟩ => show win0_4.index t (0 : Fin 2) * 128 + 1 * k.val = k.val; omega
  | ⟨1, _⟩ => show win0_4.index t (1 : Fin 2) * 128 + 1 * q.val = win0_5.index t (1 : Fin 2) * 128 + q.val; omega

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (p, q) of the output tile at point t sits at the tile's row and column. -/
theorem out_emb (t : Fin cfg0.N) (p : Fin 4096) (q : Fin 128) :
    ((cfg0.win 5).blk t).view.emb (ix2 p q) = ix2 (row (rowTile t) p) (col (colTile t) q) := by
  funext a; apply Fin.ext
  match a with
  | ⟨0, _⟩ => show win0_5.index t (0 : Fin 2) * 4096 + 1 * p.val = win0_5.index t (0 : Fin 2) * 4096 + p.val; omega
  | ⟨1, _⟩ => show win0_5.index t (1 : Fin 2) * 128 + 1 * q.val = win0_5.index t (1 : Fin 2) * 128 + q.val; omega

/-- Two functions on a [4096, 128] tile are equal when they agree at every (p, q). -/
theorem tile_ext {α : Type} (f g : S4096x128.Idx → α) (h : ∀ (p : Fin 4096) (q : Fin 128), f (ix2 p q) = g (ix2 p q)) : f = g :=
  funext fun j => by rw [eq_ix2 j]; exact h _ _

/-- What point t writes back is tile t of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz2]
  simp only [View.ld_unit_zero (S := S4096x128) hz2, View.ld_unit_zero (S := S1x4096x1) hz3, View.ld_unit_zero (S := S128x128) hz2]
  refine tile_ext _ _ fun p q => ?_
  show k0_pay1 (F := Ideal) (wblk m c t) (sblk m c t) (zblk m c t) (ublk m c t) (dblk m c t) (ix2 p q)
    = result m c (((cfg0.win 5).blk t).view.emb (ix2 p q))
  rw [out_emb]
  exact tile_entry (argW m c) (argS m c) (argZ m c) (argU m c) (argD m c) (wblk m c t) (sblk m c t) (zblk m c t) (ublk m c t) (dblk m c t)
    (rowTile t) (colTile t) (wblk_apply m c t) (sblk_apply m c t) (zblk_apply m c t) (ublk_apply m c t) (dblk_apply m c t) p q

/-! ## The tiles cover the array -/

/-- An index of the array is in point t's tile iff each coordinate is in the tile's range on its axis. -/
theorem mem_blk (t : Fin cfg0.N) (i : S8192x8192.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v3).slice (win0_5.rect t)).set ↔ _
  rw [View.set_slice_whole, Rect.mem_set_unit]
  exact Iff.rfl

/-- Every index of the array is in some point's tile: row r is in row-tile r / 4096, column c in column-tile c / 128. -/
theorem cover (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := idx_onto ⟨(i 0).val / 4096, by omega⟩ ⟨(i 1).val / 128, by omega⟩
  have q0 : win0_5.index t (0 : Fin 2) = (i 0).val / 4096 := congrFun ht 0
  have q1 : win0_5.index t (1 : Fin 2) = (i 1).val / 128 := congrFun ht 1
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The result array after the run is the specification of the argument arrays. -/
theorem final (c : Dev nD) : (dats m 0 c).arrAt 5 cfg0.N = result m c :=
  (dats m 0 c).arrAt_eq_of_cover 5 (result m c) (fun t _ => flushed_eq m c t) cover

/-! ## The run, read -/

/-- Every weakly fair execution of the kernel's program terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Blocks

end
-- ==== Proof.lean ====
/-
  A dequantised weight plus a low-rank correction: the tiled kernel against the whole-array reference.

  Inputs: integer weights w[8192, 64, 128] (row, group, lane), a scale s and a zero point z per (row, group), and two
  factors u[8192, 128], d[128, 8192]. Both programs compute the [8192, 8192] matrix whose entry at row r and column c —
  group c / 128, lane c % 128 — is

      (z[r, c / 128] + w[r, c / 128, c % 128] · s[r, c / 128])  +  Σ_k u[r, k] · d[k, c].

  The reference does it on whole arrays: the dequantised weight on the rank-3 layout, reshaped to a matrix, plus the
  product u · d. The kernel does it tile by tile on a 2 × 64 grid, tile (i, g) being rows i · 4096 … and the 128 columns of
  group g: it multiplies the tile's integer weights by that group's scale column, adds the zero-point column, and adds the
  4096 × 128 × 128 product of the tile's rows of u with the tile's columns of d, accumulated from zero (the factors
  narrowed to bf16 first, which changes nothing on the extended reals).

  The two sides apply the same operations in the same association, so they agree entry by entry on the extended reals
  with no algebraic law needed and no use of the inputs' finiteness: Spec.lean states the common function, RefValue.lean
  reads the reference's stages at an index down to it, Payload.lean and Point.lean read the kernel body's stored value at
  an entry of a tile, and Blocks.lean reads the tile's input blocks off the argument arrays (through the host's reshape of
  the weight and transposes of scale and zero point) and assembles the 128 tiles into the whole array. The kernel
  programs' frames are the generated ones, the reference's frame is its run with the result dropped, and the idealized
  kernel is the kernel's own text (no rewrite was applied), so that conjunct is trivial.
-/
import proofs.«175200_j54073638256714_1_alg».proof.Defs
import proofs.«175200_j54073638256714_1_alg».proof.Proof.Gen.Kernel
import proofs.«175200_j54073638256714_1_alg».proof.Proof.Gen.Kernel.Skeleton
import proofs.«175200_j54073638256714_1_alg».proof.Proof.Gen.Kernel.Launch
import proofs.«175200_j54073638256714_1_alg».proof.Proof.Gen.Kernel.Points
import proofs.«175200_j54073638256714_1_alg».proof.Proof.Gen.Kernel.Frame
import proofs.«175200_j54073638256714_1_alg».proof.Proof.Gen.KernelIdeal
import proofs.«175200_j54073638256714_1_alg».proof.Proof.Gen.KernelIdeal.Skeleton
import proofs.«175200_j54073638256714_1_alg».proof.Proof.Gen.KernelIdeal.Launch
import proofs.«175200_j54073638256714_1_alg».proof.Proof.Gen.KernelIdeal.Points
import proofs.«175200_j54073638256714_1_alg».proof.Proof.Gen.KernelIdeal.Frame
import proofs.«175200_j54073638256714_1_alg».proof.Proof.Gen.ReferenceIdeal
import proofs.«175200_j54073638256714_1_alg».proof.Proof.Gen.Pre_finite_inputs
import proofs.«175200_j54073638256714_1_alg».proof.Proof.Gen.KernelIdeal.Value
import proofs.«175200_j54073638256714_1_alg».proof.Proof.Gen.ReferenceIdeal.Run
import proofs.«175200_j54073638256714_1_alg».proof.Proof.Gen.ReferenceIdeal.Read
import proofs.«175200_j54073638256714_1_alg».proof.Proof.RefValue
import proofs.«175200_j54073638256714_1_alg».proof.Proof.Blocks
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what the result holds dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied in reading the kernel on the extended reals, so there is nothing to preserve. -/
theorem preserves : Cert.preserves_Kernel_KernelIdeal := trivial

/-- From memories agreeing on the five arguments, the kernel's result array ends at the specification of its arguments
    (the 128 tiles assembled) and the reference's at the specification of its own (its stages read at an index): one
    array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
